-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x32x8192 : Shape := ⟨4, ![1, 1, 32, 8192]⟩
abbrev S8192x8192 : Shape := ⟨2, ![8192, 8192]⟩
abbrev S1024x8192 : Shape := ⟨2, ![1024, 8192]⟩
abbrev S_ : Shape := ⟨0, ![]⟩

class Facts : Prop where
  bcast_S_S1x1x32x8192 : S_.BroadcastsInDim S1x1x32x8192 (![] : Fin 0 → Fin S1x1x32x8192.rank)
  reducesTo_S1x1x32x8192_S_d0_1_2_3 : S1x1x32x8192.ReducesTo [0, 1, 2, 3] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S1024x8192 : S_.BroadcastsInDim S1024x8192 (![] : Fin 0 → Fin S1024x8192.rank)
  reducesTo_S1024x8192_S_d0_1 : S1024x8192.ReducesTo [0, 1] S_

variable [Facts]

def fn_part1 {F : FTy → Type} [FloatOps F] (main_v13 : IVec S_ 1) (main_v16 : IVec S1024x8192 1) : IVec S_ 1 :=
  let main_c_5 : IVec S_ 1 := constantI S_ 1 1#1
  let main_v17 : IVec S_ 1 := (fun x v => Host.reduce IntOp.andi x v reducesTo_S1024x8192_S_d0_1 h_S_) main_v16 main_c_5
  let main_v18 : IVec S_ 1 := andi main_v13 main_v17
  main_v18

def fn {F : FTy → Type} [FloatOps F] (main_arg0 : FVec F S1x1x32x8192 .f32) (main_arg1 : FVec F S8192x8192 .f32) (main_arg2 : FVec F S1024x8192 .f32) (main_arg3 : FVec F S1024x8192 .f32) : IVec S_ 1 :=
  let main_v0 : FVec F S1x1x32x8192 .f32 := Host.absf main_arg0
  let main_cst : FVec F S_ .f32 := constant S_ .f32 0x7F800000#32
  let main_v1 : FVec F S1x1x32x8192 .f32 := broadcastInDim S1x1x32x8192 ![] bcast_S_S1x1x32x8192 main_cst
  let main_v2 : IVec S1x1x32x8192 1 := cmpf .olt main_v0 main_v1
  let main_c : IVec S_ 1 := constantI S_ 1 1#1
  let main_v3 : IVec S_ 1 := (fun x v => Host.reduce IntOp.andi x v reducesTo_S1x1x32x8192_S_d0_1_2_3 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S1024x8192 .f32 := Host.absf main_arg2
  let main_cst_2 : FVec F S_ .f32 := constant S_ .f32 0x7F800000#32
  let main_v10 : FVec F S1024x8192 .f32 := broadcastInDim S1024x8192 ![] bcast_S_S1024x8192 main_cst_2
  let main_v11 : IVec S1024x8192 1 := cmpf .olt main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  let main_v14 : FVec F S1024x8192 .f32 := Host.absf main_arg3
  let main_cst_4 : FVec F S_ .f32 := constant S_ .f32 0x7F800000#32
  let main_v15 : FVec F S1024x8192 .f32 := broadcastInDim S1024x8192 ![] bcast_S_S1024x8192 main_cst_4
  let main_v16 : IVec S1024x8192 1 := cmpf .olt main_v14 main_v15
  fn_part1 (F := F) main_v13 main_v16
-- ==== Kernel.lean ====
abbrev S1x1x32x8192 : Shape := ⟨4, ![1, 1, 32, 8192]⟩
abbrev S8192x8192 : Shape := ⟨2, ![8192, 8192]⟩
abbrev S1024x8192 : Shape := ⟨2, ![1024, 8192]⟩
abbrev S32x8192 : Shape := ⟨2, ![32, 8192]⟩
abbrev S256x8192 : Shape := ⟨2, ![256, 8192]⟩
abbrev S32x256 : Shape := ⟨2, ![32, 256]⟩
abbrev S8192x256 : Shape := ⟨2, ![8192, 256]⟩
abbrev S32x1024 : Shape := ⟨2, ![32, 1024]⟩
abbrev S32x64x128 : Shape := ⟨3, ![32, 64, 128]⟩
abbrev S64x32x128 : Shape := ⟨3, ![64, 32, 128]⟩
abbrev S1x64x32x128 : Shape := ⟨4, ![1, 64, 32, 128]⟩
abbrev S32x8x128 : Shape := ⟨3, ![32, 8, 128]⟩
abbrev S8x32x128 : Shape := ⟨3, ![8, 32, 128]⟩
abbrev S1x8x32x128 : Shape := ⟨4, ![1, 8, 32, 128]⟩

abbrev nBuf : Space → Nat
  | .hbm => 18
  | .vmem => 15
  | .smem => 0
  | _ => 0

abbrev bufTy : (tb : Table) → Fin (tcTables nBuf tb) → BufTy
  | .hbm, ⟨0, _⟩ => ⟨S1x1x32x8192, .f32⟩
  | .hbm, ⟨1, _⟩ => ⟨S8192x8192, .f32⟩
  | .hbm, ⟨2, _⟩ => ⟨S1024x8192, .f32⟩
  | .hbm, ⟨3, _⟩ => ⟨S1024x8192, .f32⟩
  | .hbm, ⟨4, _⟩ => ⟨S32x8192, .f32⟩
  | .hbm, ⟨5, _⟩ => ⟨S32x8192, .bf16⟩
  | .hbm, ⟨6, _⟩ => ⟨S32x8192, .f32⟩
  | .hbm, ⟨7, _⟩ => ⟨S32x1024, .f32⟩
  | .hbm, ⟨8, _⟩ => ⟨S32x1024, .f32⟩
  | .hbm, ⟨9, _⟩ => ⟨S32x64x128, .f32⟩
  | .hbm, ⟨10, _⟩ => ⟨S64x32x128, .f32⟩
  | .hbm, ⟨11, _⟩ => ⟨S1x64x32x128, .f32⟩
  | .hbm, ⟨12, _⟩ => ⟨S32x8x128, .f32⟩
  | .hbm, ⟨13, _⟩ => ⟨S8x32x128, .f32⟩
  | .hbm, ⟨14, _⟩ => ⟨S1x8x32x128, .f32⟩
  | .hbm, ⟨15, _⟩ => ⟨S32x8x128, .f32⟩
  | .hbm, ⟨16, _⟩ => ⟨S8x32x128, .f32⟩
  | .hbm, ⟨17, _⟩ => ⟨S1x8x32x128, .f32⟩
  | .local _ .vmem, ⟨0, _⟩ => ⟨S32x8192, .bf16⟩
  | .local _ .vmem, ⟨1, _⟩ => ⟨S256x8192, .f32⟩
  | .local _ .vmem, ⟨2, _⟩ => ⟨S256x8192, .f32⟩
  | .local _ .vmem, ⟨3, _⟩ => ⟨S32x256, .f32⟩
  | .local _ .vmem, ⟨4, _⟩ => ⟨S32x256, .f32⟩
  | .local _ .vmem, ⟨5, _⟩ => ⟨S32x8192, .bf16⟩
  | .local _ .vmem, ⟨6, _⟩ => ⟨S256x8192, .f32⟩
  | .local _ .vmem, ⟨7, _⟩ => ⟨S256x8192, .f32⟩
  | .local _ .vmem, ⟨8, _⟩ => ⟨S32x256, .f32⟩
  | .local _ .vmem, ⟨9, _⟩ => ⟨S32x256, .f32⟩
  | .local _ .vmem, ⟨10, _⟩ => ⟨S32x8192, .bf16⟩
  | .local _ .vmem, ⟨11, _⟩ => ⟨S256x8192, .f32⟩
  | .local _ .vmem, ⟨12, _⟩ => ⟨S256x8192, .f32⟩
  | .local _ .vmem, ⟨13, _⟩ => ⟨S32x256, .f32⟩
  | .local _ .vmem, ⟨14, _⟩ => ⟨S32x256, .f32⟩
  | _, _ => ⟨S1x1x32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S32x8192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S32x8192 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S32x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S1x1x32x8192_S32x8192 : S1x1x32x8192.ShapeCasts S32x8192
  bitsLt_bf16_f32 : FTy.bits .bf16 < FTy.bits .f32
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  inb_S256x8192_S256x8192_0_0 : ∀ a, (![0, 0] : Fin 2 → Nat) a + S256x8192.size a ≤ S256x8192.size a
  h_S256x8192 : 0 < S256x8192.numel
  transposes_S256x8192_p1_0_S8192x256 : S256x8192.Transposes [1, 0] S8192x256
  inb_S32x256_S32x256_0_0 : ∀ a, (![0, 0] : Fin 2 → Nat) a + S32x256.size a ≤ S32x256.size a
  h_S32x256 : 0 < S32x256.numel
  shapeCasts_S32x8192_S32x64x128 : S32x8192.ShapeCasts S32x64x128
  transposes_S32x64x128_S64x32x128_1_0_2 : S32x64x128.Transposes [1, 0, 2] S64x32x128
  bcast_S64x32x128_S1x64x32x128_1_2_3 : S64x32x128.BroadcastsInDim S1x64x32x128 (![1, 2, 3] : Fin 3 → Fin S1x64x32x128.rank)
  shapeCasts_S32x1024_S32x8x128 : S32x1024.ShapeCasts S32x8x128
  transposes_S32x8x128_S8x32x128_1_0_2 : S32x8x128.Transposes [1, 0, 2] S8x32x128
  bcast_S8x32x128_S1x8x32x128_1_2_3 : S8x32x128.BroadcastsInDim S1x8x32x128 (![1, 2, 3] : Fin 3 → Fin S1x8x32x128.rank)
  dot_S32x8192_S8192x256_S32x256_1_0_0_1_n_n_wf : DotDims.WF S32x8192 S8192x256 S32x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x8192.size a ≤ S32x8192.size a
  hwx0_0 : ∀ i : grid0.Coords, EltTy.bits .bf16 = 32 ∨ (Rect.block (s := S32x8192) S32x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x8192.size a
  hwx0_2 : ∀ i : grid0.Coords, EltTy.bits .f32 = 32 ∨ (Rect.block (s := S32x8192) S32x256.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x8192.size a ≤ S32x8192.size a
  hwx1_0 : ∀ i : grid1.Coords, EltTy.bits .bf16 = 32 ∨ (Rect.block (s := S32x8192) S32x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x8192.size a ≤ S1024x8192.size a
  hwx1_1 : ∀ i : grid1.Coords, EltTy.bits .f32 = 32 ∨ (Rect.block (s := S1024x8192) S256x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x256.size a ≤ S32x1024.size a
  hwx1_2 : ∀ i : grid1.Coords, EltTy.bits .f32 = 32 ∨ (Rect.block (s := S32x1024) S32x256.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S32x8192.size a ≤ S32x8192.size a
  hwx2_0 : ∀ i : grid2.Coords, EltTy.bits .bf16 = 32 ∨ (Rect.block (s := S32x8192) S32x8192.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x8192.size a ≤ S1024x8192.size a
  hwx2_1 : ∀ i : grid2.Coords, EltTy.bits .f32 = 32 ∨ (Rect.block (s := S1024x8192) S256x8192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x256.size a ≤ S32x1024.size a
  hwx2_2 : ∀ i : grid2.Coords, EltTy.bits .f32 = 32 ∨ (Rect.block (s := S32x1024) S32x256.size (cc2_transform_2 i) (hinb2_2 i)).WholeWords (EltTy.packing .f32)

variable [Facts₀]

def dot_S32x8192_S8192x256_S32x256_1_0_0_1_n_n : DotDims S32x8192 S8192x256 S32x256 where
  lhsContracting := [1]
  rhsContracting := [0]
  lhsNonContracting := [0]
  rhsNonContracting := [1]
  lhsBatch := []
  rhsBatch := []
  wf := dot_S32x8192_S8192x256_S32x256_1_0_0_1_n_n_wf

abbrev win0_0 : Pipeline.Window sig grid0 :=
  Pipeline.Window.ofSpec (Memref.whole main_v1) S32x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S32x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S32x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S32x8192.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S32x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1x1x32x8192 : Shape := ⟨4, ![1, 1, 32, 8192]⟩
abbrev S8192x8192 : Shape := ⟨2, ![8192, 8192]⟩
abbrev S1024x8192 : Shape := ⟨2, ![1024, 8192]⟩
abbrev S32x8192 : Shape := ⟨2, ![32, 8192]⟩
abbrev S32x1024 : Shape := ⟨2, ![32, 1024]⟩
abbrev S32x64x128 : Shape := ⟨3, ![32, 64, 128]⟩
abbrev S64x32x128 : Shape := ⟨3, ![64, 32, 128]⟩
abbrev S1x64x32x128 : Shape := ⟨4, ![1, 64, 32, 128]⟩
abbrev S32x8x128 : Shape := ⟨3, ![32, 8, 128]⟩
abbrev S8x32x128 : Shape := ⟨3, ![8, 32, 128]⟩
abbrev S1x8x32x128 : Shape := ⟨4, ![1, 8, 32, 128]⟩

abbrev nBuf : Space → Nat
  | .hbm => 17
  | .vmem => 0
  | .smem => 0
  | _ => 0

abbrev bufTy : (tb : Table) → Fin (tcTables nBuf tb) → BufTy
  | .hbm, ⟨0, _⟩ => ⟨S1x1x32x8192, .f32⟩
  | .hbm, ⟨1, _⟩ => ⟨S8192x8192, .f32⟩
  | .hbm, ⟨2, _⟩ => ⟨S1024x8192, .f32⟩
  | .hbm, ⟨3, _⟩ => ⟨S1024x8192, .f32⟩
  | .hbm, ⟨4, _⟩ => ⟨S32x8192, .f32⟩
  | .hbm, ⟨5, _⟩ => ⟨S32x8192, .f32⟩
  | .hbm, ⟨6, _⟩ => ⟨S32x1024, .f32⟩
  | .hbm, ⟨7, _⟩ => ⟨S32x1024, .f32⟩
  | .hbm, ⟨8, _⟩ => ⟨S32x64x128, .f32⟩
  | .hbm, ⟨9, _⟩ => ⟨S64x32x128, .f32⟩
  | .hbm, ⟨10, _⟩ => ⟨S1x64x32x128, .f32⟩
  | .hbm, ⟨11, _⟩ => ⟨S32x8x128, .f32⟩
  | .hbm, ⟨12, _⟩ => ⟨S8x32x128, .f32⟩
  | .hbm, ⟨13, _⟩ => ⟨S1x8x32x128, .f32⟩
  | .hbm, ⟨14, _⟩ => ⟨S32x8x128, .f32⟩
  | .hbm, ⟨15, _⟩ => ⟨S8x32x128, .f32⟩
  | .hbm, ⟨16, _⟩ => ⟨S1x8x32x128, .f32⟩
  | _, _ => ⟨S1x1x32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  shapeCasts_S1x1x32x8192_S32x8192 : S1x1x32x8192.ShapeCasts S32x8192
  shapeCasts_S32x8192_S32x64x128 : S32x8192.ShapeCasts S32x64x128
  transposes_S32x64x128_S64x32x128_1_0_2 : S32x64x128.Transposes [1, 0, 2] S64x32x128
  bcast_S64x32x128_S1x64x32x128_1_2_3 : S64x32x128.BroadcastsInDim S1x64x32x128 (![1, 2, 3] : Fin 3 → Fin S1x64x32x128.rank)
  shapeCasts_S32x1024_S32x8x128 : S32x1024.ShapeCasts S32x8x128
  transposes_S32x8x128_S8x32x128_1_0_2 : S32x8x128.Transposes [1, 0, 2] S8x32x128
  bcast_S8x32x128_S1x8x32x128_1_2_3 : S8x32x128.BroadcastsInDim S1x8x32x128 (![1, 2, 3] : Fin 3 → Fin S1x8x32x128.rank)
  dot_S32x8192_S8192x8192_S32x8192_1_1_0_0_n_n_wf : DotDims.WF S32x8192 S8192x8192 S32x8192 [1] [1] [0] [0] [] []
  dot_S32x8192_S1024x8192_S32x1024_1_1_0_0_n_n_wf : DotDims.WF S32x8192 S1024x8192 S32x1024 [1] [1] [0] [0] [] []

variable [Facts₀]

def dot_S32x8192_S8192x8192_S32x8192_1_1_0_0_n_n : DotDims S32x8192 S8192x8192 S32x8192 where
  lhsContracting := [1]
  rhsContracting := [1]
  lhsNonContracting := [0]
  rhsNonContracting := [0]
  lhsBatch := []
  rhsBatch := []
  wf := dot_S32x8192_S8192x8192_S32x8192_1_1_0_0_n_n_wf
def dot_S32x8192_S1024x8192_S32x1024_1_1_0_0_n_n : DotDims S32x8192 S1024x8192 S32x1024 where
  lhsContracting := [1]
  rhsContracting := [1]
  lhsNonContracting := [0]
  rhsNonContracting := [0]
  lhsBatch := []
  rhsBatch := []
  wf := dot_S32x8192_S1024x8192_S32x1024_1_1_0_0_n_n_wf

class Facts : Prop extends Facts₀ where

variable [Facts]
-- ==== Proof.Tile.lean ====
/-
  One grid point of a projection kernel: the body multiplies the whole activation block (32 × 8192) by the
  transpose of one tile of 256 weight rows (256 × 8192), into a zero accumulator. Read at an output entry
  `(b, n)` of the 32 × 256 tile this is the inner product of activation row `b` with weight row `n` of the tile:
  the change of float format is the identity on extended reals, the transpose swaps the two coordinates of the
  weight tile, and the matrix product into zero is the plain sum over the contraction axis.
  The three kernels of this program have the same body, so the one lemma serves all three payloads.
-/
import proofs.«164179_j86131274154272_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.TcCoe

/-! ## The operand entries the product at an output entry meets -/

theorem lhs_tile_0 (i : S32x256.Idx) (q : dot_S32x8192_S8192x256_S32x256_1_0_0_1_n_n.contr.Idx) :
    (dot_S32x8192_S8192x256_S32x256_1_0_0_1_n_n.lhsIdx i q 0).val = (i 0).val := by
  unfold DotDims.lhsIdx
  rw [dif_neg (show ¬(0 : Fin S32x8192.rank) ∈ dot_S32x8192_S8192x256_S32x256_1_0_0_1_n_n.lhsBatch by decide), dif_pos (show (0 : Fin S32x8192.rank) ∈ dot_S32x8192_S8192x256_S32x256_1_0_0_1_n_n.lhsNonContracting by decide)]
  rfl
theorem lhs_tile_1 (i : S32x256.Idx) (q : dot_S32x8192_S8192x256_S32x256_1_0_0_1_n_n.contr.Idx) :
    (dot_S32x8192_S8192x256_S32x256_1_0_0_1_n_n.lhsIdx i q 1).val = (q ⟨0, by decide⟩).val :=
  dot_S32x8192_S8192x256_S32x256_1_0_0_1_n_n.lhsIdx_val_of_single rfl i q
theorem rhs_tile_0 (i : S32x256.Idx) (q : dot_S32x8192_S8192x256_S32x256_1_0_0_1_n_n.contr.Idx) :
    (dot_S32x8192_S8192x256_S32x256_1_0_0_1_n_n.rhsIdx i q 0).val = (q ⟨0, by decide⟩).val :=
  dot_S32x8192_S8192x256_S32x256_1_0_0_1_n_n.rhsIdx_val_of_single rfl i q
theorem rhs_tile_1 (i : S32x256.Idx) (q : dot_S32x8192_S8192x256_S32x256_1_0_0_1_n_n.contr.Idx) :
    (dot_S32x8192_S8192x256_S32x256_1_0_0_1_n_n.rhsIdx i q 1).val = (i 1).val := by
  unfold DotDims.rhsIdx
  rw [dif_neg (show ¬(1 : Fin S8192x256.rank) ∈ dot_S32x8192_S8192x256_S32x256_1_0_0_1_n_n.rhsBatch by decide), dif_pos (show (1 : Fin S8192x256.rank) ∈ dot_S32x8192_S8192x256_S32x256_1_0_0_1_n_n.rhsNonContracting by decide)]
  rfl

/-- Activation entry `(b, k)` for the tile entry `i = (b, n)`. -/
abbrev actAt (i : S32x256.Idx) (k : Fin 8192) : S32x8192.Idx := fun a => match a with
  | ⟨0, _⟩ => ⟨(i 0).val, (i 0).isLt⟩
  | ⟨1, _⟩ => ⟨k.val, k.isLt⟩
/-- Transposed weight entry `(k, n)` for the tile entry `i = (b, n)`. -/
abbrev wgtTAt (i : S32x256.Idx) (k : Fin 8192) : S8192x256.Idx := fun a => match a with
  | ⟨0, _⟩ => ⟨k.val, k.isLt⟩
  | ⟨1, _⟩ => ⟨(i 1).val, (i 1).isLt⟩
/-- Weight entry `(n, k)` of the tile for the tile entry `i = (b, n)`. -/
abbrev wgtAt (i : S32x256.Idx) (k : Fin 8192) : S256x8192.Idx := fun a => match a with
  | ⟨0, _⟩ => ⟨(i 1).val, (i 1).isLt⟩
  | ⟨1, _⟩ => ⟨k.val, k.isLt⟩

/-- The matrix product into a zero accumulator, at an entry: the sum over the contraction position `k` of the left
    operand at `(b, k)` times the right operand at `(k, n)`. -/
theorem matmul_zero_apply (l : FVec Ideal S32x8192 .bf16) (r : FVec Ideal S8192x256 .bf16) (i : S32x256.Idx) :
    matmul dot_S32x8192_S8192x256_S32x256_1_0_0_1_n_n none l r (constant (F := Ideal) S32x256 .f32 0x00000000#32) i
      = ∑ k : Fin 8192, l (actAt i k) * r (wgtTAt i k) := by
  simp only [matmul]
  rw [Ideal.matmul_constant_zero_apply, ← Equiv.sum_comp (ValueIdx.contrEquiv1 dot_S32x8192_S8192x256_S32x256_1_0_0_1_n_n 8192 rfl rfl).symm]
  refine Finset.sum_congr rfl fun k _ => ?_
  have hk := ValueIdx.contrEquiv1_symm_val dot_S32x8192_S8192x256_S32x256_1_0_0_1_n_n 8192 rfl rfl k
  have el : dot_S32x8192_S8192x256_S32x256_1_0_0_1_n_n.lhsIdx i ((ValueIdx.contrEquiv1 dot_S32x8192_S8192x256_S32x256_1_0_0_1_n_n 8192 rfl rfl).symm k) = actAt i k := funext fun a => Fin.ext (by
    match a with
    | ⟨0, _⟩ => exact lhs_tile_0 _ _
    | ⟨1, _⟩ => exact (lhs_tile_1 _ _).trans hk)
  have er : dot_S32x8192_S8192x256_S32x256_1_0_0_1_n_n.rhsIdx i ((ValueIdx.contrEquiv1 dot_S32x8192_S8192x256_S32x256_1_0_0_1_n_n 8192 rfl rfl).symm k) = wgtTAt i k := funext fun a => Fin.ext (by
    match a with
    | ⟨0, _⟩ => exact (rhs_tile_0 _ _).trans hk
    | ⟨1, _⟩ => exact rhs_tile_1 _ _)
  rw [el, er]

/-- The transposed tile at `(k, n)` is the tile at `(n, k)`. -/
theorem transpose_tile_apply (w : FVec Ideal S256x8192 .bf16) (i : S32x256.Idx) (k : Fin 8192) :
    transpose S8192x256 [1, 0] w transposes_S256x8192_p1_0_S8192x256 (wgtTAt i k) = w (wgtAt i k) :=
  transpose_apply _ w transposes_S256x8192_p1_0_S8192x256 _ _ fun c => match c with | ⟨0, _⟩ => rfl | ⟨1, _⟩ => rfl

/-- THE BODY'S ARITHMETIC at a tile entry `i = (b, n)`: the inner product of activation row `b` with weight row `n`
    of the tile. -/
theorem body_apply (x0 : Vec Ideal S32x8192 .bf16) (x1 : Vec Ideal S256x8192 .f32) (i : S32x256.Idx) :
    @matmul Ideal _ S32x8192 S8192x256 S32x256 .bf16 .bf16 dot_S32x8192_S8192x256_S32x256_1_0_0_1_n_n none
        (shapeCast S32x8192 x0 shapeCasts_S32x8192_S32x8192)
        (transpose S8192x256 [1, 0] (truncf (F := Ideal) .bf16 x1 bitsLt_bf16_f32) transposes_S256x8192_p1_0_S8192x256)
        (constant (F := Ideal) S32x256 .f32 0x00000000#32) i
      = ∑ k : Fin 8192, x0 (actAt i k) * x1 (wgtAt i k) := by
  rw [matmul_zero_apply]
  refine Finset.sum_congr rfl fun k _ => ?_
  rw [transpose_tile_apply, shapeCast_self]
  rfl

/-- Each kernel's payload is that body. -/
theorem pay0_apply (x0 : Vec Ideal S32x8192 .bf16) (x1 : Vec Ideal S256x8192 .f32) (i : S32x256.Idx) :
    k0_pay1 (F := Ideal) x0 x1 i = ∑ k : Fin 8192, x0 (actAt i k) * x1 (wgtAt i k) := body_apply x0 x1 i
theorem pay1_apply (x0 : Vec Ideal S32x8192 .bf16) (x1 : Vec Ideal S256x8192 .f32) (i : S32x256.Idx) :
    k1_pay1 (F := Ideal) x0 x1 i = ∑ k : Fin 8192, x0 (actAt i k) * x1 (wgtAt i k) := body_apply x0 x1 i
theorem pay2_apply (x0 : Vec Ideal S32x8192 .bf16) (x1 : Vec Ideal S256x8192 .f32) (i : S32x256.Idx) :
    k2_pay1 (F := Ideal) x0 x1 i = ∑ k : Fin 8192, x0 (actAt i k) * x1 (wgtAt i k) := body_apply x0 x1 i

end Cert.KernelIdeal.Tile

end
-- ==== Proof.Projection.lean ====
/-
  The three projections of this kernel are one function of two matrices: the activations `x` (32 rows, 8192
  columns) against a weight matrix `w` (E rows, 8192 columns), every output entry the inner product of a row of
  `x` with a row of `w`:

      proj E x w (b, e) = ∑ k < 8192, x (b, k) · w (e, k).

  Over the extended reals a finite sum needs no side condition (addition is commutative and associative there, and
  no product is distributed over a sum), so this one formula is what both programs compute, whatever the inputs.
-/
import Idealize.ShloMosaic.PureOps.Ideal
import Idealize.ShloMosaic.Lib.ValueIdx

noncomputable section

namespace Cert.Projection

open Idealize.ShloMosaic

/-- The entry of the activations an output entry `i = (b, e)` meets at contraction position `k`: `(b, k)`. -/
abbrev actIdx {E : ℕ} (i : (⟨2, ![32, E]⟩ : Shape).Idx) (k : Fin 8192) : (⟨2, ![32, 8192]⟩ : Shape).Idx := fun a => match a with
  | ⟨0, _⟩ => ⟨(i 0).val, (i 0).isLt⟩
  | ⟨1, _⟩ => ⟨k.val, k.isLt⟩

/-- The entry of the weights an output entry `i = (b, e)` meets at contraction position `k`: `(e, k)`. -/
abbrev wgtIdx {E : ℕ} (i : (⟨2, ![32, E]⟩ : Shape).Idx) (k : Fin 8192) : (⟨2, ![E, 8192]⟩ : Shape).Idx := fun a => match a with
  | ⟨0, _⟩ => ⟨(i 1).val, (i 1).isLt⟩
  | ⟨1, _⟩ => ⟨k.val, k.isLt⟩

/-- Rows of `x` against rows of `w`: the matrix product `x · wᵀ`, entry by entry. -/
def proj (E : ℕ) (x : (⟨2, ![32, 8192]⟩ : Shape).Idx → EReal) (w : (⟨2, ![E, 8192]⟩ : Shape).Idx → EReal) :
    (⟨2, ![32, E]⟩ : Shape).Idx → EReal :=
  fun i => ∑ k : Fin 8192, x (actIdx i k) * w (wgtIdx i k)

theorem proj_apply (E : ℕ) (x : (⟨2, ![32, 8192]⟩ : Shape).Idx → EReal) (w : (⟨2, ![E, 8192]⟩ : Shape).Idx → EReal)
    (i : (⟨2, ![32, E]⟩ : Shape).Idx) : proj E x w i = ∑ k : Fin 8192, x (actIdx i k) * w (wgtIdx i k) := rfl

end Cert.Projection

end
-- ==== Proof.Region0.lean ====
/-
  The first projection (the queries): the grid has 32 points, point `t` reads the whole activation block and the
  tile of weight rows `256·t … 256·t + 255`, and writes the 32 × 256 tile of output columns `256·t … 256·t + 255`.
  So what point `t` writes back is tile `t` of the one whole-array function `proj 8192` of the activations and the
  weights as the region finds them, the 32 tiles cover the 32 × 8192 output, and the output array ends at that
  function.
-/
import proofs.«164179_j86131274154272_1_alg».proof.Proof.Gen.KernelIdeal.Frame
import proofs.«164179_j86131274154272_1_alg».proof.Proof.Tile
import proofs.«164179_j86131274154272_1_alg».proof.Proof.Projection

set_option maxRecDepth 16384

noncomputable section

namespace Cert.KernelIdeal.Region0

open Cert.KernelIdeal Cert.KernelIdeal.Gen Cert.Projection
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The activations and the weights as the region finds them, at their literal types. -/
abbrev act (c : Dev nD) : (⟨2, ![32, 8192]⟩ : Shape).Idx → EReal := V c main_v1
abbrev wgt (c : Dev nD) : (⟨2, ![8192, 8192]⟩ : Shape).Idx → EReal := V c main_arg1

theorem hz : (![0, 0] : Fin 2 → Nat) = fun _ => 0 := funext fun a => by fin_cases a <;> rfl

/-- The printed index maps over the grid: the activation window stays at block (0, 0); the weight window is at
    block row `t`; the output window at block column `t`. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- WHAT POINT `t` WRITES BACK is tile `t` of `proj 8192` of the region-entry activations and weights. -/
theorem flushed_eq (c : Dev nD) (t : Fin cfg0.N) :
    (dat0 V c).flushed 2 t = ((cfg0.win 2).blk t).view.read (Elt Ideal) (proj 8192 (act V c) (wgt V c)) := by
  show (cfg0.win 2).cut (grid0.coords t) ((dat0 V c).after 2 t) = _
  rw [after0_2]
  unfold out0_2
  rw [View.canon_unit_zero hz]
  simp only [View.ld_unit_zero (S := S32x8192) hz, View.ld_unit_zero (S := S256x8192) hz]
  obtain ⟨e0, e1, e2, e3, e4, e5⟩ := idx_facts t
  funext j
  refine (Tile.pay0_apply (iblk0 V c 0 t) (iblk0 V c 1 t) j).trans ?_
  show _ = proj 8192 (act V c) (wgt V c) (((cfg0.win 2).blk t).view.emb j)
  rw [proj_apply]
  refine Finset.sum_congr rfl fun k _ => ?_
  have h0 : ((cfg0.win 0).blk t).view.emb (Tile.actAt j k) = actIdx (((cfg0.win 2).blk t).view.emb j) k := by
    funext a; apply Fin.ext
    match a with
    | ⟨0, _⟩ => show win0_0.index t (0 : Fin 2) * 32 + 1 * (j 0).val = win0_2.index t (0 : Fin 2) * 32 + 1 * (j 0).val; omega
    | ⟨1, _⟩ => show win0_0.index t (1 : Fin 2) * 8192 + 1 * k.val = k.val; omega
  have h1 : ((cfg0.win 1).blk t).view.emb (Tile.wgtAt j k) = wgtIdx (((cfg0.win 2).blk t).view.emb j) k := by
    funext a; apply Fin.ext
    match a with
    | ⟨0, _⟩ => show win0_1.index t (0 : Fin 2) * 256 + 1 * (j 1).val = win0_2.index t (1 : Fin 2) * 256 + 1 * (j 1).val; omega
    | ⟨1, _⟩ => show win0_1.index t (1 : Fin 2) * 8192 + 1 * k.val = k.val; omega
  show act V c (((cfg0.win 0).blk t).view.emb (Tile.actAt j k)) * wgt V c (((cfg0.win 1).blk t).view.emb (Tile.wgtAt j k))
    = act V c (actIdx (((cfg0.win 2).blk t).view.emb j) k) * wgt V c (wgtIdx (((cfg0.win 2).blk t).view.emb j) k)
  rw [h0, h1]

/-- An entry of the output array is in point `t`'s tile iff each coordinate is in the tile's range on its axis. -/
theorem mem_blk (t : Fin cfg0.N) (i : S32x8192.Idx) :
    i ∈ ((cfg0.win 2).blk t).view.set ↔ ∀ a : Fin 2, win0_2.index t a * S32x256.size a ≤ (i a).val ∧ (i a).val < win0_2.index t a * S32x256.size a + S32x256.size a := by
  show i ∈ ((View.whole main_v2).slice (win0_2.rect t)).set ↔ _
  rw [View.set_slice_whole, Rect.mem_set_unit]
  exact Iff.rfl

/-- THE TILES COVER THE OUTPUT: entry `(b, e)` lies in the tile of point `e / 256`, which is written back. -/
theorem cover (i : S32x8192.Idx) : ∃ t : Fin cfg0.N, (cfg0.win 2).flush t = true ∧ i ∈ ((cfg0.win 2).blk t).view.set := by
  have hi0 : (i 0).val < 32 := (i 0).isLt
  have hi1 : (i 1).val < 8192 := (i 1).isLt
  obtain ⟨t, ht⟩ : ∃ t : Fin cfg0.N, t.val = (i 1).val / 256 := ⟨⟨(i 1).val / 256, by show (i 1).val / 256 < 32; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 256 ≤ (i 1).val ∧ (i 1).val < win0_2.index t (1 : Fin 2) * 256 + 256; omega

/-- THE OUTPUT ARRAY after the region: `proj 8192` of the activations and the weights as the region finds them. -/
theorem final (c : Dev nD) : (dat0 V c).arrAt 2 cfg0.N = proj 8192 (act V c) (wgt V c) :=
  (dat0 V c).arrAt_eq_of_cover 2 _ (fun t _ => flushed_eq V c t) (cover)

end Cert.KernelIdeal.Region0

end
-- ==== Proof.Region1.lean ====
/-
  The second projection (the keys): the grid has 4 points, point `t` reads the whole activation block and the
  tile of weight rows `256·t … 256·t + 255`, and writes the 32 × 256 tile of output columns `256·t … 256·t + 255`.
  So what point `t` writes back is tile `t` of the one whole-array function `proj 1024` of the activations and the
  weights as the region finds them, the 4 tiles cover the 32 × 1024 output, and the output array ends at that
  function.
-/
import proofs.«164179_j86131274154272_1_alg».proof.Proof.Gen.KernelIdeal.Frame
import proofs.«164179_j86131274154272_1_alg».proof.Proof.Tile
import proofs.«164179_j86131274154272_1_alg».proof.Proof.Projection

set_option maxRecDepth 16384

noncomputable section

namespace Cert.KernelIdeal.Region1

open Cert.KernelIdeal Cert.KernelIdeal.Gen Cert.Projection
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The activations and the weights as the region finds them, at their literal types. -/
abbrev act (c : Dev nD) : (⟨2, ![32, 8192]⟩ : Shape).Idx → EReal := V c main_v1
abbrev wgt (c : Dev nD) : (⟨2, ![1024, 8192]⟩ : Shape).Idx → EReal := V c main_arg2

theorem hz : (![0, 0] : Fin 2 → Nat) = fun _ => 0 := funext fun a => by fin_cases a <;> rfl

/-- The printed index maps over the grid: the activation window stays at block (0, 0); the weight window is at
    block row `t`; the output window at block column `t`. -/
theorem idx_facts : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- WHAT POINT `t` WRITES BACK is tile `t` of `proj 1024` of the region-entry activations and weights. -/
theorem flushed_eq (c : Dev nD) (t : Fin cfg1.N) :
    (dat1 V c).flushed 2 t = ((cfg1.win 2).blk t).view.read (Elt Ideal) (proj 1024 (act V c) (wgt V c)) := by
  show (cfg1.win 2).cut (grid1.coords t) ((dat1 V c).after 2 t) = _
  rw [after1_2]
  unfold out1_2
  rw [View.canon_unit_zero hz]
  simp only [View.ld_unit_zero (S := S32x8192) hz, View.ld_unit_zero (S := S256x8192) hz]
  obtain ⟨e0, e1, e2, e3, e4, e5⟩ := idx_facts t
  funext j
  refine (Tile.pay1_apply (iblk1 V c 0 t) (iblk1 V c 1 t) j).trans ?_
  show _ = proj 1024 (act V c) (wgt V c) (((cfg1.win 2).blk t).view.emb j)
  rw [proj_apply]
  refine Finset.sum_congr rfl fun k _ => ?_
  have h0 : ((cfg1.win 0).blk t).view.emb (Tile.actAt j k) = actIdx (((cfg1.win 2).blk t).view.emb j) k := by
    funext a; apply Fin.ext
    match a with
    | ⟨0, _⟩ => show win1_0.index t (0 : Fin 2) * 32 + 1 * (j 0).val = win1_2.index t (0 : Fin 2) * 32 + 1 * (j 0).val; omega
    | ⟨1, _⟩ => show win1_0.index t (1 : Fin 2) * 8192 + 1 * k.val = k.val; omega
  have h1 : ((cfg1.win 1).blk t).view.emb (Tile.wgtAt j k) = wgtIdx (((cfg1.win 2).blk t).view.emb j) k := by
    funext a; apply Fin.ext
    match a with
    | ⟨0, _⟩ => show win1_1.index t (0 : Fin 2) * 256 + 1 * (j 1).val = win1_2.index t (1 : Fin 2) * 256 + 1 * (j 1).val; omega
    | ⟨1, _⟩ => show win1_1.index t (1 : Fin 2) * 8192 + 1 * k.val = k.val; omega
  show act V c (((cfg1.win 0).blk t).view.emb (Tile.actAt j k)) * wgt V c (((cfg1.win 1).blk t).view.emb (Tile.wgtAt j k))
    = act V c (actIdx (((cfg1.win 2).blk t).view.emb j) k) * wgt V c (wgtIdx (((cfg1.win 2).blk t).view.emb j) k)
  rw [h0, h1]

/-- An entry of the output array is in point `t`'s tile iff each coordinate is in the tile's range on its axis. -/
theorem mem_blk (t : Fin cfg1.N) (i : S32x1024.Idx) :
    i ∈ ((cfg1.win 2).blk t).view.set ↔ ∀ a : Fin 2, win1_2.index t a * S32x256.size a ≤ (i a).val ∧ (i a).val < win1_2.index t a * S32x256.size a + S32x256.size a := by
  show i ∈ ((View.whole main_v3).slice (win1_2.rect t)).set ↔ _
  rw [View.set_slice_whole, Rect.mem_set_unit]
  exact Iff.rfl

/-- THE TILES COVER THE OUTPUT: entry `(b, e)` lies in the tile of point `e / 256`, which is written back. -/
theorem cover (i : S32x1024.Idx) : ∃ t : Fin cfg1.N, (cfg1.win 2).flush t = true ∧ i ∈ ((cfg1.win 2).blk t).view.set := by
  have hi0 : (i 0).val < 32 := (i 0).isLt
  have hi1 : (i 1).val < 1024 := (i 1).isLt
  obtain ⟨t, ht⟩ : ∃ t : Fin cfg1.N, t.val = (i 1).val / 256 := ⟨⟨(i 1).val / 256, by show (i 1).val / 256 < 4; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 32 ≤ (i 0).val ∧ (i 0).val < win1_2.index t (0 : Fin 2) * 32 + 32; omega
  | ⟨1, _⟩ => show win1_2.index t (1 : Fin 2) * 256 ≤ (i 1).val ∧ (i 1).val < win1_2.index t (1 : Fin 2) * 256 + 256; omega

/-- THE OUTPUT ARRAY after the region: `proj 1024` of the activations and the weights as the region finds them. -/
theorem final (c : Dev nD) : (dat1 V c).arrAt 2 cfg1.N = proj 1024 (act V c) (wgt V c) :=
  (dat1 V c).arrAt_eq_of_cover 2 _ (fun t _ => flushed_eq V c t) (cover)

end Cert.KernelIdeal.Region1

end
-- ==== Proof.Region2.lean ====
/-
  The third projection (the values): the grid has 4 points, point `t` reads the whole activation block and the
  tile of weight rows `256·t … 256·t + 255`, and writes the 32 × 256 tile of output columns `256·t … 256·t + 255`.
  So what point `t` writes back is tile `t` of the one whole-array function `proj 1024` of the activations and the
  weights as the region finds them, the 4 tiles cover the 32 × 1024 output, and the output array ends at that
  function.
-/
import proofs.«164179_j86131274154272_1_alg».proof.Proof.Gen.KernelIdeal.Frame
import proofs.«164179_j86131274154272_1_alg».proof.Proof.Tile
import proofs.«164179_j86131274154272_1_alg».proof.Proof.Projection

set_option maxRecDepth 16384

noncomputable section

namespace Cert.KernelIdeal.Region2

open Cert.KernelIdeal Cert.KernelIdeal.Gen Cert.Projection
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The activations and the weights as the region finds them, at their literal types. -/
abbrev act (c : Dev nD) : (⟨2, ![32, 8192]⟩ : Shape).Idx → EReal := V c main_v1
abbrev wgt (c : Dev nD) : (⟨2, ![1024, 8192]⟩ : Shape).Idx → EReal := V c main_arg3

theorem hz : (![0, 0] : Fin 2 → Nat) = fun _ => 0 := funext fun a => by fin_cases a <;> rfl

/-- The printed index maps over the grid: the activation window stays at block (0, 0); the weight window is at
    block row `t`; the output window at block column `t`. -/
theorem idx_facts : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val :=
  (by decide +kernel : ∀ t : Fin grid2.N, _)

/-- WHAT POINT `t` WRITES BACK is tile `t` of `proj 1024` of the region-entry activations and weights. -/
theorem flushed_eq (c : Dev nD) (t : Fin cfg2.N) :
    (dat2 V c).flushed 2 t = ((cfg2.win 2).blk t).view.read (Elt Ideal) (proj 1024 (act V c) (wgt V c)) := by
  show (cfg2.win 2).cut (grid2.coords t) ((dat2 V c).after 2 t) = _
  rw [after2_2]
  unfold out2_2
  rw [View.canon_unit_zero hz]
  simp only [View.ld_unit_zero (S := S32x8192) hz, View.ld_unit_zero (S := S256x8192) hz]
  obtain ⟨e0, e1, e2, e3, e4, e5⟩ := idx_facts t
  funext j
  refine (Tile.pay2_apply (iblk2 V c 0 t) (iblk2 V c 1 t) j).trans ?_
  show _ = proj 1024 (act V c) (wgt V c) (((cfg2.win 2).blk t).view.emb j)
  rw [proj_apply]
  refine Finset.sum_congr rfl fun k _ => ?_
  have h0 : ((cfg2.win 0).blk t).view.emb (Tile.actAt j k) = actIdx (((cfg2.win 2).blk t).view.emb j) k := by
    funext a; apply Fin.ext
    match a with
    | ⟨0, _⟩ => show win2_0.index t (0 : Fin 2) * 32 + 1 * (j 0).val = win2_2.index t (0 : Fin 2) * 32 + 1 * (j 0).val; omega
    | ⟨1, _⟩ => show win2_0.index t (1 : Fin 2) * 8192 + 1 * k.val = k.val; omega
  have h1 : ((cfg2.win 1).blk t).view.emb (Tile.wgtAt j k) = wgtIdx (((cfg2.win 2).blk t).view.emb j) k := by
    funext a; apply Fin.ext
    match a with
    | ⟨0, _⟩ => show win2_1.index t (0 : Fin 2) * 256 + 1 * (j 1).val = win2_2.index t (1 : Fin 2) * 256 + 1 * (j 1).val; omega
    | ⟨1, _⟩ => show win2_1.index t (1 : Fin 2) * 8192 + 1 * k.val = k.val; omega
  show act V c (((cfg2.win 0).blk t).view.emb (Tile.actAt j k)) * wgt V c (((cfg2.win 1).blk t).view.emb (Tile.wgtAt j k))
    = act V c (actIdx (((cfg2.win 2).blk t).view.emb j) k) * wgt V c (wgtIdx (((cfg2.win 2).blk t).view.emb j) k)
  rw [h0, h1]

/-- An entry of the output array is in point `t`'s tile iff each coordinate is in the tile's range on its axis. -/
theorem mem_blk (t : Fin cfg2.N) (i : S32x1024.Idx) :
    i ∈ ((cfg2.win 2).blk t).view.set ↔ ∀ a : Fin 2, win2_2.index t a * S32x256.size a ≤ (i a).val ∧ (i a).val < win2_2.index t a * S32x256.size a + S32x256.size a := by
  show i ∈ ((View.whole main_v4).slice (win2_2.rect t)).set ↔ _
  rw [View.set_slice_whole, Rect.mem_set_unit]
  exact Iff.rfl

/-- THE TILES COVER THE OUTPUT: entry `(b, e)` lies in the tile of point `e / 256`, which is written back. -/
theorem cover (i : S32x1024.Idx) : ∃ t : Fin cfg2.N, (cfg2.win 2).flush t = true ∧ i ∈ ((cfg2.win 2).blk t).view.set := by
  have hi0 : (i 0).val < 32 := (i 0).isLt
  have hi1 : (i 1).val < 1024 := (i 1).isLt
  obtain ⟨t, ht⟩ : ∃ t : Fin cfg2.N, t.val = (i 1).val / 256 := ⟨⟨(i 1).val / 256, by show (i 1).val / 256 < 4; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 32 ≤ (i 0).val ∧ (i 0).val < win2_2.index t (0 : Fin 2) * 32 + 32; omega
  | ⟨1, _⟩ => show win2_2.index t (1 : Fin 2) * 256 ≤ (i 1).val ∧ (i 1).val < win2_2.index t (1 : Fin 2) * 256 + 256; omega

/-- THE OUTPUT ARRAY after the region: `proj 1024` of the activations and the weights as the region finds them. -/
theorem final (c : Dev nD) : (dat2 V c).arrAt 2 cfg2.N = proj 1024 (act V c) (wgt V c) :=
  (dat2 V c).arrAt_eq_of_cover 2 _ (fun t _ => flushed_eq V c t) (cover)

end Cert.KernelIdeal.Region2

end
-- ==== Proof.KernelValue.lean ====
/-
  The kernel program's three results, at the ideal instance, as functions of the argument arrays.

  The host stretch before the regions reshapes `x` to a 32 × 8192 matrix and changes its float format, which is the
  identity on extended reals: every region finds the activations at that matrix (a region reads them through an
  input window, so it hands them on unchanged). Each region finds its weight argument as launched, and leaves its
  output array at `proj` of the two (Region0, Region1, Region2). The host stretch after the regions lays each
  output out by heads: reshape 32 × (H·128) to 32 × H × 128, swap the first two axes, add a leading unit axis.
  No later region and no host operation writes an earlier region's output, so each result is the heads layout of
  its projection.
-/
import proofs.«164179_j86131274154272_1_alg».proof.Proof.KernelRun
import proofs.«164179_j86131274154272_1_alg».proof.Proof.Region0
import proofs.«164179_j86131274154272_1_alg».proof.Proof.Region1
import proofs.«164179_j86131274154272_1_alg».proof.Proof.Region2
import Idealize.ShloMosaic.Lib.StableHlo.Run
import Idealize.ShloMosaic.PureOps.Ideal

set_option maxRecDepth 16384

noncomputable section

namespace Cert.KernelIdeal.Heads

open Cert.KernelIdeal Cert.KernelIdeal.Gen Cert.Projection
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-- The activations: the argument `x` as a 32 × 8192 matrix. -/
abbrev acts (c : Dev nD) : (⟨2, ![32, 8192]⟩ : Shape).Idx → EReal :=
  shapeCast S32x8192 (m ((c : Thread nD τ).loc main_arg0)) shapeCasts_S1x1x32x8192_S32x8192

/-- The heads layout of the 64 query heads: `(b, h·128 + d) ↦ (0, h, b, d)`. -/
abbrev headsQ (y : S32x8192.Idx → EReal) : S1x64x32x128.Idx → EReal :=
  broadcastInDim S1x64x32x128 ![1, 2, 3] bcast_S64x32x128_S1x64x32x128_1_2_3
    (transpose S64x32x128 [1, 0, 2] (shapeCast S32x64x128 y shapeCasts_S32x8192_S32x64x128) transposes_S32x64x128_S64x32x128_1_0_2)

/-- The heads layout of the 8 key (or value) heads. -/
abbrev headsKV (y : S32x1024.Idx → EReal) : S1x8x32x128.Idx → EReal :=
  broadcastInDim S1x8x32x128 ![1, 2, 3] bcast_S8x32x128_S1x8x32x128_1_2_3
    (transpose S8x32x128 [1, 0, 2] (shapeCast S32x8x128 y shapeCasts_S32x1024_S32x8x128) transposes_S32x8x128_S8x32x128_1_0_2)

/-! ## What each region finds -/

/-- Region 0 finds the activations at the reshaped argument: the format change is the identity. -/
theorem act1 (c : Dev nD) : Region0.act (V1 m ρ) c = acts m c := by
  show StableHlo.after hostOps0 (W0 m ρ c) (Proc.devRef .tc main_v1) = _
  after_results
  rfl

/-- Region 0 reads the activations through an input window, so region 1 finds them unchanged. -/
theorem act2 (c : Dev nD) : Region1.act (V2 m ρ) c = acts m c :=
  ((W2_arr m ρ c 0).trans (((dat0 (V1 m ρ) c).arrAt_in 0 rfl _).trans (A_eq0 (V1 m ρ) c 0))).trans (act1 m ρ c)

/-- And so does region 2 after region 1. -/
theorem act3 (c : Dev nD) : Region2.act (V3 m ρ) c = acts m c :=
  ((W3_arr m ρ c 0).trans (((dat1 (V2 m ρ) c).arrAt_in 0 rfl _).trans (A_eq1 (V2 m ρ) c 0))).trans (act2 m ρ c)

/-- No host operation before the regions writes a weight argument. -/
theorem wgt1 (c : Dev nD) : Region0.wgt (V1 m ρ) c = m ((c : Thread nD τ).loc main_arg1) := by
  show StableHlo.after hostOps0 (W0 m ρ c) (Proc.devRef .tc main_arg1) = _
  after_results

theorem wgt2 (c : Dev nD) : Region1.wgt (V2 m ρ) c = m ((c : Thread nD τ).loc main_arg2) := by
  refine (W2_of_ne m ρ c main_arg2 (by decide)).trans ?_
  show StableHlo.after hostOps0 (W0 m ρ c) (Proc.devRef .tc main_arg2) = _
  after_results

theorem wgt3 (c : Dev nD) : Region2.wgt (V3 m ρ) c = m ((c : Thread nD τ).loc main_arg3) := by
  refine (W3_of_ne m ρ c main_arg3 (by decide)).trans ?_
  refine (W2_of_ne m ρ c main_arg3 (by decide)).trans ?_
  show StableHlo.after hostOps0 (W0 m ρ c) (Proc.devRef .tc main_arg3) = _
  after_results

/-! ## What each region leaves, read at the last region's exit -/

theorem out_q (c : Dev nD) : (W4 m ρ c (Proc.devRef .tc main_v2) : S32x8192.Idx → EReal) = proj 8192 (acts m c) (m ((c : Thread nD τ).loc main_arg1)) := by
  refine (W4_of_ne m ρ c main_v2 (by decide)).trans ?_
  refine (W3_of_ne m ρ c main_v2 (by decide)).trans ?_
  refine (W2_arr m ρ c 2).trans ?_
  refine (Region0.final (V1 m ρ) c).trans ?_
  rw [act1 m ρ c, wgt1 m ρ c]

theorem out_k (c : Dev nD) : (W4 m ρ c (Proc.devRef .tc main_v3) : S32x1024.Idx → EReal) = proj 1024 (acts m c) (m ((c : Thread nD τ).loc main_arg2)) := by
  refine (W4_of_ne m ρ c main_v3 (by decide)).trans ?_
  refine (W3_arr m ρ c 2).trans ?_
  refine (Region1.final (V2 m ρ) c).trans ?_
  rw [act2 m ρ c, wgt2 m ρ c]

theorem out_v (c : Dev nD) : (W4 m ρ c (Proc.devRef .tc main_v4) : S32x1024.Idx → EReal) = proj 1024 (acts m c) (m ((c : Thread nD τ).loc main_arg3)) := by
  refine (W4_arr m ρ c 2).trans ?_
  refine (Region2.final (V3 m ρ) c).trans ?_
  rw [act3 m ρ c, wgt3 m ρ c]

/-! ## The results: the host stretch after the regions -/

theorem res_q (c : Dev nD) : (W5 m ρ c (Proc.devRef .tc main_v7) : S1x64x32x128.Idx → EReal) = headsQ (proj 8192 (acts m c) (m ((c : Thread nD τ).loc main_arg1))) := by
  have h : (W5 m ρ c (Proc.devRef .tc main_v7) : S1x64x32x128.Idx → EReal) = headsQ (W4 m ρ c (Proc.devRef .tc main_v2)) := by
    show StableHlo.after hostOps3 (W4 m ρ c) (Proc.devRef .tc main_v7) = _
    after_results
    rfl
  rw [h, out_q m ρ c]

theorem res_k (c : Dev nD) : (W5 m ρ c (Proc.devRef .tc main_v10) : S1x8x32x128.Idx → EReal) = headsKV (proj 1024 (acts m c) (m ((c : Thread nD τ).loc main_arg2))) := by
  have h : (W5 m ρ c (Proc.devRef .tc main_v10) : S1x8x32x128.Idx → EReal) = headsKV (W4 m ρ c (Proc.devRef .tc main_v3)) := by
    show StableHlo.after hostOps3 (W4 m ρ c) (Proc.devRef .tc main_v10) = _
    after_results
    rfl
  rw [h, out_k m ρ c]

theorem res_v (c : Dev nD) : (W5 m ρ c (Proc.devRef .tc main_v13) : S1x8x32x128.Idx → EReal) = headsKV (proj 1024 (acts m c) (m ((c : Thread nD τ).loc main_arg3))) := by
  have h : (W5 m ρ c (Proc.devRef .tc main_v13) : S1x8x32x128.Idx → EReal) = headsKV (W4 m ρ c (Proc.devRef .tc main_v4)) := by
    show StableHlo.after hostOps3 (W4 m ρ c) (Proc.devRef .tc main_v13) = _
    after_results
    rfl
  rw [h, out_v m ρ c]

/-! ## The run -/

/-- Every weakly fair execution of the kernel program terminates, nothing faulting, with each result at the heads
    layout of its projection of the launch arguments, the arguments unchanged. -/
theorem run : θ_run defs (onTc (τ := τ) (main (F := Ideal))) ⟨m, fun _ => 0, ρ⟩ (fun r => ∀ c : Dev nD,
      r.2.mem ((c.tc : Thread nD τ).loc main_v7) = headsQ (proj 8192 (acts m c) (m ((c : Thread nD τ).loc main_arg1)))
      ∧ r.2.mem ((c.tc : Thread nD τ).loc main_v10) = headsKV (proj 1024 (acts m c) (m ((c : Thread nD τ).loc main_arg2)))
      ∧ r.2.mem ((c.tc : Thread nD τ).loc main_v13) = headsKV (proj 1024 (acts m c) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c _ (mem_uc main_v7 (by decide))).trans (res_q m ρ c),
       (h c _ (mem_uc main_v10 (by decide))).trans (res_k m ρ c),
       (h c _ (mem_uc main_v13 (by decide))).trans (res_v m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)
    (Run.run_all m ρ)

end Cert.KernelIdeal.Heads

end
-- ==== Proof.ReferenceValue.lean ====
/-
  The reference program's three results, at the ideal instance: each `dot_general` contracts the columns of the
  reshaped argument `x` (32 × 8192) with the columns of a weight matrix (E × 8192), so at an entry `(b, e)` it is the
  sum over `k` of `x (b, k) · w (e, k)`: the function `proj E`. The heads layout after it is left as it is printed.
-/
import proofs.«164179_j86131274154272_1_alg».proof.Proof.Gen.ReferenceIdeal.Read
import proofs.«164179_j86131274154272_1_alg».proof.Proof.Projection

noncomputable section

namespace Cert.ReferenceIdeal.Heads

open Cert.ReferenceIdeal Cert.ReferenceIdeal.Gen Cert.Projection
open Idealize.ShloMosaic Idealize.ShloMosaic.TcCoe Idealize.SL.Sem

/-- The entries the printed sums meet are the entries `proj` meets. -/
theorem lidx_q (i : S32x8192.Idx) (k : Fin 8192) : Read.lidx_main_v1 i k = actIdx i k :=
  funext fun a => match a with | ⟨0, _⟩ => rfl | ⟨1, _⟩ => rfl
theorem ridx_q (i : S32x8192.Idx) (k : Fin 8192) : Read.ridx_main_v1 i k = wgtIdx i k :=
  funext fun a => match a with | ⟨0, _⟩ => rfl | ⟨1, _⟩ => rfl
theorem lidx_k (i : S32x1024.Idx) (k : Fin 8192) : Read.lidx_main_v2 i k = actIdx i k :=
  funext fun a => match a with | ⟨0, _⟩ => rfl | ⟨1, _⟩ => rfl
theorem ridx_k (i : S32x1024.Idx) (k : Fin 8192) : Read.ridx_main_v2 i k = wgtIdx i k :=
  funext fun a => match a with | ⟨0, _⟩ => rfl | ⟨1, _⟩ => rfl
theorem lidx_v (i : S32x1024.Idx) (k : Fin 8192) : Read.lidx_main_v3 i k = actIdx i k :=
  funext fun a => match a with | ⟨0, _⟩ => rfl | ⟨1, _⟩ => rfl
theorem ridx_v (i : S32x1024.Idx) (k : Fin 8192) : Read.ridx_main_v3 i k = wgtIdx i k :=
  funext fun a => match a with | ⟨0, _⟩ => rfl | ⟨1, _⟩ => rfl

/-- The query projection is `proj 8192` of the reshaped `x` and the query weights. -/
theorem dot_q (x0 : (⟨S1x1x32x8192, .f32⟩ : BufTy).Contents (Elt Ideal)) (x1 : (⟨S8192x8192, .f32⟩ : BufTy).Contents (Elt Ideal)) :
    Read.val_main_v1 (F := Ideal) x0 x1 = proj 8192 (Read.val_main_v0 (F := Ideal) x0) x1 :=
  funext fun i => by
    rw [Read.val_main_v1_apply, proj_apply]
    refine Finset.sum_congr rfl fun k _ => ?_
    rw [lidx_q, ridx_q]

/-- The key projection is `proj 1024` of the reshaped `x` and the key weights. -/
theorem dot_k (x0 : (⟨S1x1x32x8192, .f32⟩ : BufTy).Contents (Elt Ideal)) (x2 : (⟨S1024x8192, .f32⟩ : BufTy).Contents (Elt Ideal)) :
    Read.val_main_v2 (F := Ideal) x0 x2 = proj 1024 (Read.val_main_v0 (F := Ideal) x0) x2 :=
  funext fun i => by
    rw [Read.val_main_v2_apply, proj_apply]
    refine Finset.sum_congr rfl fun k _ => ?_
    rw [lidx_k, ridx_k]

/-- The value projection is `proj 1024` of the reshaped `x` and the value weights. -/
theorem dot_v (x0 : (⟨S1x1x32x8192, .f32⟩ : BufTy).Contents (Elt Ideal)) (x3 : (⟨S1024x8192, .f32⟩ : BufTy).Contents (Elt Ideal)) :
    Read.val_main_v3 (F := Ideal) x0 x3 = proj 1024 (Read.val_main_v0 (F := Ideal) x0) x3 :=
  funext fun i => by
    rw [Read.val_main_v3_apply, proj_apply]
    refine Finset.sum_congr rfl fun k _ => ?_
    rw [lidx_v, ridx_v]

/-- The first result: the heads layout of the query projection. -/
theorem res_q (x0 : (⟨S1x1x32x8192, .f32⟩ : BufTy).Contents (Elt Ideal)) (x1 : (⟨S8192x8192, .f32⟩ : BufTy).Contents (Elt Ideal)) :
    Read.val_main_v6 (F := Ideal) x0 x1
      = broadcastInDim S1x64x32x128 ![1, 2, 3] bcast_S64x32x128_S1x64x32x128_1_2_3 (transpose S64x32x128 [1, 0, 2]
          (shapeCast S32x64x128 (proj 8192 (shapeCast S32x8192 x0 shapeCasts_S1x1x32x8192_S32x8192) x1) shapeCasts_S32x8192_S32x64x128)
          transposes_S32x64x128_S64x32x128_1_0_2) := by
  unfold Read.val_main_v6 Read.val_main_v5 Read.val_main_v4
  rw [dot_q]
  rfl

/-- The second result: the heads layout of the key projection. -/
theorem res_k (x0 : (⟨S1x1x32x8192, .f32⟩ : BufTy).Contents (Elt Ideal)) (x2 : (⟨S1024x8192, .f32⟩ : BufTy).Contents (Elt Ideal)) :
    Read.val_main_v9 (F := Ideal) x0 x2
      = broadcastInDim S1x8x32x128 ![1, 2, 3] bcast_S8x32x128_S1x8x32x128_1_2_3 (transpose S8x32x128 [1, 0, 2]
          (shapeCast S32x8x128 (proj 1024 (shapeCast S32x8192 x0 shapeCasts_S1x1x32x8192_S32x8192) x2) shapeCasts_S32x1024_S32x8x128)
          transposes_S32x8x128_S8x32x128_1_0_2) := by
  unfold Read.val_main_v9 Read.val_main_v8 Read.val_main_v7
  rw [dot_k]
  rfl

/-- The third result: the heads layout of the value projection. -/
theorem res_v (x0 : (⟨S1x1x32x8192, .f32⟩ : BufTy).Contents (Elt Ideal)) (x3 : (⟨S1024x8192, .f32⟩ : BufTy).Contents (Elt Ideal)) :
    Read.val_main_v12 (F := Ideal) x0 x3
      = broadcastInDim S1x8x32x128 ![1, 2, 3] bcast_S8x32x128_S1x8x32x128_1_2_3 (transpose S8x32x128 [1, 0, 2]
          (shapeCast S32x8x128 (proj 1024 (shapeCast S32x8192 x0 shapeCasts_S1x1x32x8192_S32x8192) x3) shapeCasts_S32x1024_S32x8x128)
          transposes_S32x8x128_S8x32x128_1_0_2) := by
  unfold Read.val_main_v12 Read.val_main_v11 Read.val_main_v10
  rw [dot_v]
  rfl

end Cert.ReferenceIdeal.Heads

end
-- ==== Proof.lean ====
/-
  The certificate of the fused QKV projection: `x` (32 rows of 8192 activations) is multiplied by the transposes of
  the query, key and value weight matrices (8192, 1024 and 1024 rows of 8192), and each product is laid out by heads.

  The kernel program does each product in its own pallas_call, 256 output columns per grid point, on activations and
  weight tiles whose float format it narrows before the matrix unit; the reference does each product with one
  `dot_general` of the unnarrowed arrays. On extended reals a change of float format is the identity and a matrix
  product into a zero accumulator is the plain sum over the contraction axis, so every entry of every product is, in
  both programs, the same finite sum `∑ k, x (b, k) · w (e, k)` (Projection.lean's `proj`); a finite sum of extended
  reals needs no side condition, so the precondition is never opened. The layout by heads after the products is the
  same three shape operations in both programs.

  The frames of the two kernel programs are the generated ones; the reference's frame is its generated run with the
  results dropped; the idealized kernel program is the kernel program's own text read over the extended reals, so
  `preserves` is `True`.
-/
import proofs.«164179_j86131274154272_1_alg».proof.Defs
import proofs.«164179_j86131274154272_1_alg».proof.Proof.Gen.Kernel
import proofs.«164179_j86131274154272_1_alg».proof.Proof.Gen.Kernel.Skeleton
import proofs.«164179_j86131274154272_1_alg».proof.Proof.Gen.Kernel.Launch
import proofs.«164179_j86131274154272_1_alg».proof.Proof.Gen.Kernel.Points
import proofs.«164179_j86131274154272_1_alg».proof.Proof.Gen.Kernel.Frame
import proofs.«164179_j86131274154272_1_alg».proof.Proof.Gen.KernelIdeal
import proofs.«164179_j86131274154272_1_alg».proof.Proof.Gen.KernelIdeal.Skeleton
import proofs.«164179_j86131274154272_1_alg».proof.Proof.Gen.KernelIdeal.Launch
import proofs.«164179_j86131274154272_1_alg».proof.Proof.Gen.KernelIdeal.Points
import proofs.«164179_j86131274154272_1_alg».proof.Proof.Gen.KernelIdeal.Frame
import proofs.«164179_j86131274154272_1_alg».proof.Proof.Gen.ReferenceIdeal
import proofs.«164179_j86131274154272_1_alg».proof.Proof.Gen.Pre_finite_inputs
import proofs.«164179_j86131274154272_1_alg».proof.Proof.Gen.ReferenceIdeal.Run
import proofs.«164179_j86131274154272_1_alg».proof.Proof.Gen.ReferenceIdeal.Read
import proofs.«164179_j86131274154272_1_alg».proof.Proof.KernelValue
import proofs.«164179_j86131274154272_1_alg».proof.Proof.ReferenceValue
import Idealize.ShloMosaic.Adequacy
import Idealize.ShloMosaic.Init

noncomputable section

namespace Cert.Proof

open Idealize.ShloMosaic Idealize.SL.Sem

/-- The reference has no kernel: its frame is its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories agreeing on the arguments both programs end with each result at the heads layout of the same
    projection: the kernel's run (KernelValue.lean) on one side, the reference's run with each `dot_general` read as
    `proj` (ReferenceValue.lean) on the other, the arguments' agreement rewritten. -/
theorem algebraic : Cert.algebraic_KernelIdeal_ReferenceIdeal := by
  intro m ρ m' ρ' _ hagree
  refine ⟨_, _, _, Cert.KernelIdeal.Heads.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v6_eq, Cert.ReferenceIdeal.Heads.res_q, (hagree c).1, (hagree c).2.1]
  · rw [Cert.ReferenceIdeal.Read.val_main_v9_eq, Cert.ReferenceIdeal.Heads.res_k, (hagree c).1, (hagree c).2.2.1]
  · rw [Cert.ReferenceIdeal.Read.val_main_v12_eq, Cert.ReferenceIdeal.Heads.res_v, (hagree c).1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
